-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S2x32 : Shape := ⟨2, ![2, 32]⟩
abbrev S2 : Shape := ⟨1, ![2]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S1600000x32 .f32) (main_arg1 : FVec F S2x32 .f32) (main_arg2 : FVec F S2 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S2x32 .f32 := Host.absf main_arg1
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S1600000x32 : Shape := ⟨2, ![1600000, 32]⟩
abbrev S2x32 : Shape := ⟨2, ![2, 32]⟩
abbrev S2 : Shape := ⟨1, ![2]⟩
abbrev S1x32 : Shape := ⟨2, ![1, 32]⟩
abbrev S32 : Shape := ⟨1, ![32]⟩
abbrev S1 : Shape := ⟨1, ![1]⟩
abbrev S_ : Shape := ⟨0, ![]⟩
abbrev S1x1 : Shape := ⟨2, ![1, 1]⟩
abbrev S32x1600000 : Shape := ⟨2, ![32, 1600000]⟩
abbrev S12500x2x128 : Shape := ⟨3, ![12500, 2, 128]⟩
abbrev S32x64000 : Shape := ⟨2, ![32, 64000]⟩
abbrev S500x2x128 : Shape := ⟨3, ![500, 2, 128]⟩
abbrev S1x64000 : Shape := ⟨2, ![1, 64000]⟩
abbrev S500x128 : Shape := ⟨2, ![500, 128]⟩
abbrev S500x1x128 : Shape := ⟨3, ![500, 1, 128]⟩
abbrev S12500x128x2 : Shape := ⟨3, ![12500, 128, 2]⟩
abbrev S1600000x2 : Shape := ⟨2, ![1600000, 2]⟩

abbrev nBuf : Space → Nat
  | .hbm => 19
  | .vmem => 6
  | .smem => 0
  | _ => 0

abbrev bufTy : (tb : Table) → Fin (tcTables nBuf tb) → BufTy
  | .hbm, ⟨0, _⟩ => ⟨S1600000x32, .f32⟩
  | .hbm, ⟨1, _⟩ => ⟨S2x32, .f32⟩
  | .hbm, ⟨2, _⟩ => ⟨S2, .f32⟩
  | .hbm, ⟨3, _⟩ => ⟨S1x32, .f32⟩
  | .hbm, ⟨4, _⟩ => ⟨S32, .f32⟩
  | .hbm, ⟨5, _⟩ => ⟨S1x32, .f32⟩
  | .hbm, ⟨6, _⟩ => ⟨S32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S32x1600000, .f32⟩
  | .hbm, ⟨16, _⟩ => ⟨S12500x2x128, .f32⟩
  | .hbm, ⟨17, _⟩ => ⟨S12500x128x2, .f32⟩
  | .hbm, ⟨18, _⟩ => ⟨S1600000x2, .f32⟩
  | .local _ .vmem, ⟨0, _⟩ => ⟨S32x64000, .f32⟩
  | .local _ .vmem, ⟨1, _⟩ => ⟨S32x64000, .f32⟩
  | .local _ .vmem, ⟨2, _⟩ => ⟨S1x32, .f32⟩
  | .local _ .vmem, ⟨3, _⟩ => ⟨S1x1, .f32⟩
  | .local _ .vmem, ⟨4, _⟩ => ⟨S500x2x128, .f32⟩
  | .local _ .vmem, ⟨5, _⟩ => ⟨S500x2x128, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S500x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x32_S1x32_0_0 : S2x32.Slices ![0, 0] S1x32
  shapeCasts_S1x32_S32 : S1x32.ShapeCasts S32
  slices_S2x32_S1x32_1_0 : S2x32.Slices ![1, 0] S1x32
  shapeCasts_S32_S1x32 : S32.ShapeCasts S1x32
  slices_S2_S1_0 : S2.Slices ![0] S1
  shapeCasts_S1_S_ : S1.ShapeCasts S_
  slices_S2_S1_1 : S2.Slices ![1] S1
  shapeCasts_S_S1x1 : S_.ShapeCasts S1x1
  transposes_S1600000x32_S32x1600000_1_0 : S1600000x32.Transposes [1, 0] S32x1600000
  inb_S32x64000_S32x64000_0_0 : ∀ a, (![0, 0] : Fin 2 → Nat) a + S32x64000.size a ≤ S32x64000.size a
  h_S32x64000 : 0 < S32x64000.numel
  shapeCasts_S32x64000_S32x64000 : S32x64000.ShapeCasts S32x64000
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x64000_S500x128 : S1x64000.ShapeCasts S500x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S500x2x128_S500x1x128_0_0_0 : ∀ a, (![0, 0, 0] : Fin 3 → Nat) a + S500x1x128.size a ≤ S500x2x128.size a
  h_S500x1x128 : 0 < S500x1x128.numel
  shapeCasts_S500x1x128_S500x128 : S500x1x128.ShapeCasts S500x128
  shapeCasts_S500x128_S500x1x128 : S500x128.ShapeCasts S500x1x128
  inb_S500x2x128_S500x1x128_0_1_0 : ∀ a, (![0, 1, 0] : Fin 3 → Nat) a + S500x1x128.size a ≤ S500x2x128.size a
  transposes_S12500x2x128_S12500x128x2_0_2_1 : S12500x2x128.Transposes [0, 2, 1] S12500x128x2
  shapeCasts_S12500x128x2_S1600000x2 : S12500x128x2.ShapeCasts S1600000x2
  dot_S1x32_S32x64000_S1x64000_1_0_0_1_n_n_wf : DotDims.WF S1x32 S32x64000 S1x64000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64000.size a ≤ S32x1600000.size a
  hwx0_0 : ∀ i : grid0.Coords, EltTy.bits .f32 = 32 ∨ (Rect.block (s := S32x1600000) S32x64000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S500x2x128.size a ≤ S12500x2x128.size a
  hwx0_3 : ∀ i : grid0.Coords, EltTy.bits .f32 = 32 ∨ (Rect.block (s := S12500x2x128) S500x2x128.size (cc0_transform_3 i) (hinb0_3 i)).WholeWords (EltTy.packing .f32)

variable [Facts₀]

def dot_S1x32_S32x64000_S1x64000_1_0_0_1_n_n : DotDims S1x32 S32x64000 S1x64000 where
  lhsContracting := [1]
  rhsContracting := [0]
  lhsNonContracting := [0]
  rhsNonContracting := [1]
  lhsBatch := []
  rhsBatch := []
  wf := dot_S1x32_S32x64000_S1x64000_1_0_0_1_n_n_wf

abbrev win0_0 : Pipeline.Window sig grid0 :=
  Pipeline.Window.ofSpec (Memref.whole main_v12) S32x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S500x2x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S2x32 : Shape := ⟨2, ![2, 32]⟩
abbrev S2 : Shape := ⟨1, ![2]⟩
abbrev S32x2 : Shape := ⟨2, ![32, 2]⟩
abbrev S1600000x2 : Shape := ⟨2, ![1600000, 2]⟩
abbrev S1x2 : Shape := ⟨2, ![1, 2]⟩
abbrev S_ : Shape := ⟨0, ![]⟩
abbrev S1600000 : Shape := ⟨1, ![1600000]⟩
abbrev S1600000x1 : Shape := ⟨2, ![1600000, 1]⟩

abbrev nBuf : Space → Nat
  | .hbm => 22
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S2x32, .f32⟩
  | .hbm, ⟨2, _⟩ => ⟨S2, .f32⟩
  | .hbm, ⟨3, _⟩ => ⟨S32x2, .f32⟩
  | .hbm, ⟨4, _⟩ => ⟨S1600000x2, .f32⟩
  | .hbm, ⟨5, _⟩ => ⟨S1x2, .f32⟩
  | .hbm, ⟨6, _⟩ => ⟨S1600000x2, .f32⟩
  | .hbm, ⟨7, _⟩ => ⟨S1600000x2, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S1600000, .f32⟩
  | .hbm, ⟨12, _⟩ => ⟨S1600000, .f32⟩
  | .hbm, ⟨13, _⟩ => ⟨S1600000x1, .f32⟩
  | .hbm, ⟨14, _⟩ => ⟨S1600000x2, .f32⟩
  | .hbm, ⟨15, _⟩ => ⟨S1600000x2, .f32⟩
  | .hbm, ⟨16, _⟩ => ⟨S1600000x2, .f32⟩
  | .hbm, ⟨17, _⟩ => ⟨S_, .f32⟩
  | .hbm, ⟨18, _⟩ => ⟨S1600000, .f32⟩
  | .hbm, ⟨19, _⟩ => ⟨S1600000x1, .f32⟩
  | .hbm, ⟨20, _⟩ => ⟨S1600000x2, .f32⟩
  | .hbm, ⟨21, _⟩ => ⟨S1600000x2, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S2x32_S32x2_1_0 : S2x32.Transposes [1, 0] S32x2
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  reducesTo_S1600000x2_S1600000_d1 : S1600000x2.ReducesTo [1] S1600000
  h_S_ : 0 < S_.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x2_0_1 : S1600000x1.BroadcastsInDim S1600000x2 (![0, 1] : Fin 2 → Fin S1600000x2.rank)
  dot_S1600000x32_S32x2_S1600000x2_1_0_0_1_n_n_wf : DotDims.WF S1600000x32 S32x2 S1600000x2 [1] [0] [0] [1] [] []

variable [Facts₀]

def dot_S1600000x32_S32x2_S1600000x2_1_0_0_1_n_n : DotDims S1600000x32 S32x2 S1600000x2 where
  lhsContracting := [1]
  rhsContracting := [0]
  lhsNonContracting := [0]
  rhsNonContracting := [1]
  lhsBatch := []
  rhsBatch := []
  wf := dot_S1600000x32_S32x2_S1600000x2_1_0_0_1_n_n_wf

class Facts : Prop extends Facts₀ where

variable [Facts]
-- ==== Proof.FiniteEntries.lean ====
/-
  What the precondition says: `finite_inputs` is the conjunction of three `jnp.all (|x| < +∞)`, one per argument
  array, so under it every entry of `z`, `W` and `b` is a real number (neither infinity).  An extended real
  `x` has `max x (-x) < ⊤` exactly when it is neither `⊤` nor `⊥`.
-/
import proofs.«169653_g77627238907915_cont_9to1_m_635_8_alg».proof.Pre_finite_inputs
import Idealize.ShloMosaic.Lib.ReduceAll
import Idealize.ShloMosaic.Lib.ValueIdx
import Idealize.ShloMosaic.PureOps.Ideal

noncomputable section

namespace Cert.FiniteEntries

open Idealize.ShloMosaic Cert.Pre_finite_inputs

/-- The pattern of `+∞`. -/
theorem ofBits_pos_inf : Ideal.ofBits .f32 0x7F800000#32 = ⊤ := by simp [Ideal.ofBits, Ideal.ieee]

/-- An extended real whose absolute value compares below `+∞` is a real. -/
theorem real_of_abs_lt (x : EReal)
    (h : Ideal.cmp .olt (max x (-x)) (Ideal.ofBits .f32 0x7F800000#32) = 1#1) : ∃ r : ℝ, x = (r : EReal) := by
  have hlt : max x (-x) < ⊤ := by
    by_contra hn
    rw [ofBits_pos_inf] at h
    simp [Ideal.cmp, hn] at h
  induction x using EReal.rec with
  | bot => simp at hlt
  | coe r => exact ⟨r, rfl⟩
  | top => simp at hlt

instance : Subsingleton S_.Idx := ⟨fun a b => funext fun d => d.elim0⟩

variable [Facts]

/-- Under `finite_inputs` every entry of each of the three argument arrays is a real. -/
theorem entries_real (x0 : FVec Ideal S1600000x32 .f32) (x1 : FVec Ideal S2x32 .f32) (x2 : FVec Ideal S2 .f32)
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.FiniteEntries

end
-- ==== Proof.TwoClass.lean ====
/-
  The mathematics of the certificate, free of any program: a softmax over TWO classes is a logistic of the
  difference of the two logits.

  For real logits `l 0`, `l 1` and any real shift `M` (the reference subtracts the row maximum; any real
  number serves), with `a = exp (l 0 - M)` and `b = exp (l 1 - M)`:
      a / (a + b) = 1 / (1 + exp (-(l 0 - l 1)))          (b = a · exp (-(l 0 - l 1)), a > 0)
      b / (a + b) = 1 - 1 / (1 + exp (-(l 0 - l 1))).
  And the difference of two affine logits is one affine form of the difference of the weights:
      (∑ q, z q · w0 q + b0) - (∑ q, z q · w1 q + b1) = ∑ q, (w0 q - w1 q) · z q + (b0 - b1),
  which distributes a product over a difference and so is a law of the REALS: on the extended reals it is used
  only at finite entries.  Every statement here is on the extended reals at real arguments, in the spelling the
  two programs' operations reduce to (`Ideal.div`, `Ideal.exp`, `Ideal.logistic`, `max`, `∑`).
-/
import Idealize.ShloMosaic.PureOps.Ideal
import Idealize.ShloMosaic.PureOps.Ideal.Laws
import Mathlib.Data.Finset.Fold

noncomputable section

namespace Cert.TwoClass

open Idealize.ShloMosaic

/-- The coercion of the reals into the extended reals commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- An affine logit of real entries is a real: `∑ q, z q · w q + b`. -/
theorem logit_coe {n : Nat} (z w : Fin n → ℝ) (b : ℝ) :
    (∑ q : Fin n, ((z q : ℝ) : EReal) * ((w q : ℝ) : EReal)) + ((b : ℝ) : EReal)
      = ((∑ q : Fin n, z q * w q + b : ℝ) : EReal) := by
  simp only [← EReal.coe_mul]
  rw [← coe_sum, ← EReal.coe_add]

/-- The kernel's form of the logit difference, at real entries, is a real. -/
theorem diff_coe {n : Nat} (z w0 w1 : Fin n → ℝ) (b0 b1 : ℝ) :
    (∑ q : Fin n, (((w0 q : ℝ) : EReal) - ((w1 q : ℝ) : EReal)) * ((z q : ℝ) : EReal))
        + (((b0 : ℝ) : EReal) - ((b1 : ℝ) : EReal))
      = ((∑ q : Fin n, (w0 q - w1 q) * z q + (b0 - b1) : ℝ) : EReal) := by
  simp only [← EReal.coe_sub, ← EReal.coe_mul]
  rw [← coe_sum, ← EReal.coe_add]

/-- Over the reals the difference of the two logits is the affine form of the difference of the weights. -/
theorem diff_eq {n : Nat} (z w0 w1 : Fin n → ℝ) (b0 b1 : ℝ) :
    ∑ q : Fin n, (w0 q - w1 q) * z q + (b0 - b1)
      = (∑ q : Fin n, z q * w0 q + b0) - (∑ q : Fin n, z q * w1 q + b1) := by
  have h : ∑ q : Fin n, (w0 q - w1 q) * z q = ∑ q : Fin n, z q * w0 q - ∑ q : Fin n, z q * w1 q := by
    rw [← Finset.sum_sub_distrib]
    exact Finset.sum_congr rfl fun q _ => by ring
  rw [h]; ring

/-- The second class's exponential is the first's times `exp (-(l0 - l1))`, whatever the shift. -/
theorem exp_shift (l0 l1 M : ℝ) : Real.exp (l1 - M) = Real.exp (l0 - M) * Real.exp (-(l0 - l1)) := by
  rw [← Real.exp_add]; congr 1; ring

/-- Class 0 of a two-class softmax with any real shift is the logistic of the logit difference. -/
theorem softmax0_real (l0 l1 M : ℝ) :
    Real.exp (l0 - M) * (1 / (Real.exp (l0 - M) + Real.exp (l1 - M))) = (1 + Real.exp (-(l0 - l1)))⁻¹ := by
  rw [exp_shift l0 l1 M]
  have ha : Real.exp (l0 - M) ≠ 0 := (Real.exp_pos _).ne'
  have he : 1 + Real.exp (-(l0 - l1)) ≠ 0 := (add_pos one_pos (Real.exp_pos _)).ne'
  field_simp

/-- Class 1 is one minus it. -/
theorem softmax1_real (l0 l1 M : ℝ) :
    Real.exp (l1 - M) * (1 / (Real.exp (l0 - M) + Real.exp (l1 - M))) = 1 - (1 + Real.exp (-(l0 - l1)))⁻¹ := by
  rw [exp_shift l0 l1 M]
  have ha : Real.exp (l0 - M) ≠ 0 := (Real.exp_pos _).ne'
  have he : 1 + Real.exp (-(l0 - l1)) ≠ 0 := (add_pos one_pos (Real.exp_pos _)).ne'
  field_simp
  ring

/-- The largest of finitely many reals, folded from `-∞`, is a real as soon as there is one of them. -/
theorem fold_max_real {ι : Type} (s : Finset ι) (f : ι → EReal) (i0 : ι) (hi0 : i0 ∈ s)
    (hf : ∀ i ∈ s, ∃ r : ℝ, f i = (r : EReal)) : ∃ r : ℝ, s.fold max ⊥ f = (r : EReal) := by
  have htop : s.fold max ⊥ f ≠ ⊤ := by
    refine ne_of_lt ((Finset.fold_max_lt _).mpr ⟨bot_lt_top, fun i hi => ?_⟩)
    obtain ⟨r, hr⟩ := hf i hi
    rw [hr]; exact EReal.coe_lt_top r
  have hbot : s.fold max ⊥ f ≠ ⊥ := by
    obtain ⟨r, hr⟩ := hf i0 hi0
    have hle : f i0 ≤ s.fold max ⊥ f := (Finset.le_fold_max _).mpr (Or.inr ⟨i0, hi0, le_refl _⟩)
    rw [hr] at hle
    exact ne_of_gt (lt_of_lt_of_le (EReal.bot_lt_coe r) hle)
  exact ⟨(s.fold max ⊥ f).toReal, (EReal.coe_toReal htop hbot).symm⟩

/-- The reference's entry `j` of a row with logits `L`: `exp (L j - M)` over `0 + ∑ k, exp (L k - M)`, the shift
    `M` the row's maximum folded from `-∞` and met with `-∞` once more, as the host program spells it. -/
def softmaxEntry (L : Fin 2 → EReal) (j : Fin 2) : EReal :=
  Ideal.div (Ideal.exp (L j - max (Ideal.ofBits .f32 0xFF800000#32) ((Finset.univ : Finset (Fin 2)).fold max (Ideal.ofBits .f32 0xFF800000#32) L)))
    (Ideal.ofBits .f32 0x00000000#32
      + ∑ k : Fin 2, Ideal.exp (L k - max (Ideal.ofBits .f32 0xFF800000#32) ((Finset.univ : Finset (Fin 2)).fold max (Ideal.ofBits .f32 0xFF800000#32) L)))

/-- The pattern of `-∞`. -/
theorem ofBits_neg_inf : Ideal.ofBits .f32 0xFF800000#32 = ⊥ := by simp [Ideal.ofBits, Ideal.ieee]

/-- The pattern of one. -/
theorem ofBits_one : Ideal.ofBits .f32 0x3F800000#32 = 1 := by
  simp [Ideal.ofBits, Ideal.ieee, -EReal.coe_mul]; norm_num

/-- At real logits the shift is a real. -/
theorem shift_real (l : Fin 2 → ℝ) :
    ∃ M : ℝ, max (Ideal.ofBits .f32 0xFF800000#32)
      ((Finset.univ : Finset (Fin 2)).fold max (Ideal.ofBits .f32 0xFF800000#32) fun k => ((l k : ℝ) : EReal)) = (M : EReal) := by
  rw [ofBits_neg_inf]
  obtain ⟨M, hM⟩ := fold_max_real (Finset.univ : Finset (Fin 2)) (fun k => ((l k : ℝ) : EReal)) 0 (Finset.mem_univ _)
    (fun i _ => ⟨l i, rfl⟩)
  exact ⟨M, by rw [hM]; exact max_eq_right bot_le⟩

/-- The reference's entry at real logits, as a real: `exp (l j - M) / (exp (l 0 - M) + exp (l 1 - M))`. -/
theorem softmaxEntry_coe (l : Fin 2 → ℝ) (j : Fin 2) :
    ∃ M : ℝ, softmaxEntry (fun k => ((l k : ℝ) : EReal)) j
      = ((Real.exp (l j - M) * (1 / (Real.exp (l 0 - M) + Real.exp (l 1 - M))) : ℝ) : EReal) := by
  obtain ⟨M, hM⟩ := shift_real l
  refine ⟨M, ?_⟩
  unfold softmaxEntry
  rw [hM, Ideal.ofBits_zero_f32, zero_add, Fin.sum_univ_two]
  simp only [← EReal.coe_sub, Ideal.exp_coe, ← EReal.coe_add]
  rw [Ideal.div_coe (add_pos (Real.exp_pos _) (Real.exp_pos _)).ne', ← EReal.coe_mul]

/-- THE LAW, class 0: the reference's entry is the logistic of the logit difference. -/
theorem softmaxEntry_zero (l : Fin 2 → ℝ) :
    softmaxEntry (fun k => ((l k : ℝ) : EReal)) 0 = Ideal.logistic (((l 0 - l 1 : ℝ)) : EReal) := by
  obtain ⟨M, hM⟩ := softmaxEntry_coe l 0
  rw [hM, Ideal.logistic_coe, softmax0_real]

/-- THE LAW, class 1: one minus it (the kernel's `1.0` is the real one). -/
theorem softmaxEntry_one (l : Fin 2 → ℝ) :
    softmaxEntry (fun k => ((l k : ℝ) : EReal)) 1
      = Ideal.ofBits .f32 0x3F800000#32 - Ideal.logistic (((l 0 - l 1 : ℝ)) : EReal) := by
  obtain ⟨M, hM⟩ := softmaxEntry_coe l 1
  rw [hM, Ideal.logistic_coe, softmax1_real, ofBits_one, ← EReal.coe_one, ← EReal.coe_sub]

end Cert.TwoClass

end
-- ==== Proof.RefEntry.lean ====
/-
  The reference, entry by entry.  Row `n` of the reference's result is the softmax of the two logits
  `L k = ∑ q, z[n, q] · W[k, q] + b[k]` (`k = 0, 1`): entry `j` is `exp (L j - M) / (0 + ∑ k, exp (L k - M))` with
  `M` the row's maximum, folded from `-∞`.  Read off the reference's operations one at a time.
-/
import proofs.«169653_g77627238907915_cont_9to1_m_635_8_alg».proof.Proof.Gen.ReferenceIdeal.Read
import proofs.«169653_g77627238907915_cont_9to1_m_635_8_alg».proof.Proof.TwoClass
import Idealize.ShloMosaic.Lib.ValueIdx
import Idealize.ShloMosaic.PureOps.Ideal.Laws
import Idealize.ShloMosaic.PureOps.Reduce

noncomputable section

namespace Cert.RefEntry

open Cert.ReferenceIdeal Cert.ReferenceIdeal.Gen Cert.ReferenceIdeal.Read Idealize.ShloMosaic Idealize.ShloMosaic.ValueIdx

variable (x0 : FVec Ideal S1600000x32 .f32) (x1 : FVec Ideal S2x32 .f32) (x2 : FVec Ideal S2 .f32)

/-- Logit `k` of row `n`. -/
def logit (n : Fin 1600000) (k : Fin 2) : EReal :=
  (∑ q : Fin 32, x0 (ix2 n q) * x1 (ix2 k q)) + x2 (ix1 k)

/-- The biased product at `(n, k)` is logit `k` of row `n`. -/
theorem logit_apply (n : Fin 1600000) (k : Fin 2) :
    val_main_v4 (F := Ideal) x0 x1 x2 (ix2 n k) = logit x0 x1 x2 n k := by
  rw [val_main_v4_apply, val_main_v1_apply, val_main_v3_apply, val_main_v2_apply]
  simp only [val_main_v0_apply]
  have el : ∀ q : Fin 32, lidx_main_v1 (ix2 n k) q = ix2 n q := fun q =>
    funext fun a => Fin.ext (by match a with | ⟨0, _⟩ => rfl | ⟨1, _⟩ => rfl)
  have er : ∀ q : Fin 32, idx_main_v0 (ridx_main_v1 (ix2 n k) q) = ix2 k q := fun q =>
    funext fun a => Fin.ext (by match a with | ⟨0, _⟩ => rfl | ⟨1, _⟩ => rfl)
  have eb : idx_main_v2 (idx_main_v3 (ix2 n k)) = ix1 k :=
    funext fun a => Fin.ext (by match a with | ⟨0, _⟩ => rfl)
  simp only [el, er, eb]
  rfl

/-- The reduced axis: the row index with the class put back is `(n, k)`. -/
theorem lift_row (h : S1600000x2.Reduces [1] S1600000) (n : Fin 1600000) (k : Fin (S1600000x2.size 1)) :
    h.lift (ix1 n) k = ix2 n (⟨k.val, k.isLt⟩ : Fin 2) := by
  funext c; apply Fin.ext
  fin_cases c <;> rfl

/-- The row's shift: the maximum of its two logits, folded from `-∞` and met with `-∞` once more. -/
theorem shift_apply (n : Fin 1600000) :
    val_main_v7 (F := Ideal) x0 x1 x2 (ix1 n)
      = max (Ideal.ofBits .f32 0xFF800000#32)
          ((Finset.univ : Finset (Fin 2)).fold max (Ideal.ofBits .f32 0xFF800000#32) (logit x0 x1 x2 n)) := by
  rw [val_main_v7_apply, val_main_v6_apply, val_main_cst_0_apply]
  unfold val_main_v5
  rw [Host.reduce_eq_fold_single FloatOps.maximumf _ _ reducesTo_S1600000x2_S1600000_d1 (by decide) h_S_ (ix1 n)]
  have hf : (val_main_v4 (F := Ideal) x0 x1 x2 ∘ (by decide : S1600000x2.Reduces [1] S1600000).lift (ix1 n))
      = fun k : Fin 2 => logit x0 x1 x2 n k := funext fun k => by
    show val_main_v4 (F := Ideal) x0 x1 x2 (_) = _
    rw [lift_row, logit_apply]
    rfl
  rw [hf]
  rfl

/-- The exponential at `(n, k)`: of logit `k` less the row's shift. -/
theorem exp_apply (n : Fin 1600000) (k : Fin 2) :
    val_main_v11 (F := Ideal) x0 x1 x2 (ix2 n k)
      = Ideal.exp (logit x0 x1 x2 n k - val_main_v7 (F := Ideal) x0 x1 x2 (ix1 n)) := by
  rw [val_main_v11_apply, val_main_v10_apply, val_main_v9_apply, val_main_v8_apply, logit_apply]
  have e : idx_main_v8 (idx_main_v9 (ix2 n k)) = ix1 n :=
    funext fun a => Fin.ext (by match a with | ⟨0, _⟩ => rfl)
  rw [e]
  rfl

/-- The row's normaliser: zero plus the two exponentials. -/
theorem sum_apply (n : Fin 1600000) :
    val_main_v12 (F := Ideal) x0 x1 x2 (ix1 n)
      = Ideal.ofBits .f32 0x00000000#32 + ∑ k : Fin 2, val_main_v11 (F := Ideal) x0 x1 x2 (ix2 n k) := by
  rw [val_main_v12_apply, val_main_cst_1_apply]
  refine congrArg (_ + ·) (Finset.sum_congr rfl fun k _ => ?_)
  exact congrArg _ (funext fun a => Fin.ext (by match a with | ⟨0, _⟩ => rfl | ⟨1, _⟩ => rfl))

/-- THE REFERENCE AT AN ENTRY: entry `(n, j)` of its result is the two-class softmax entry `j` of row `n`'s logits. -/
theorem result_apply (n : Fin 1600000) (j : Fin 2) :
    val_main_v15 (F := Ideal) x0 x1 x2 (ix2 n j) = Cert.TwoClass.softmaxEntry (logit x0 x1 x2 n) j := by
  rw [val_main_v15_apply, val_main_v14_apply, val_main_v13_apply]
  have e : idx_main_v13 (idx_main_v14 (ix2 n j)) = ix1 n :=
    funext fun a => Fin.ext (by match a with | ⟨0, _⟩ => rfl)
  rw [e, sum_apply]
  simp only [exp_apply, shift_apply]
  rfl

end Cert.RefEntry

end
-- ==== Proof.Net.lean ====
/-
  The network's last layer as ONE function of the three argument arrays, and why the reference computes it.
  Row `n` of the result is `(s, 1 - s)` with `s = logistic (∑ q, (W[0, q] - W[1, q]) · z[n, q] + (b[0] - b[1]))`.
  The reference computes the softmax of the two logits `∑ q, z[n, q] · W[k, q] + b[k]`; at FINITE entries the
  difference of the logits is the affine form above (a product distributes over a difference only off the
  infinities), and a two-class softmax is the logistic of that difference and its complement.
-/
import proofs.«169653_g77627238907915_cont_9to1_m_635_8_alg».proof.Proof.TwoClass
import proofs.«169653_g77627238907915_cont_9to1_m_635_8_alg».proof.Proof.RefEntry

noncomputable section

namespace Cert.Net

open Idealize.ShloMosaic Idealize.ShloMosaic.ValueIdx

/-- The first class's probability for row `n`. -/
def score (z : (⟨2, ![1600000, 32]⟩ : Shape).Idx → EReal) (W : (⟨2, ![2, 32]⟩ : Shape).Idx → EReal)
    (b : (⟨1, ![2]⟩ : Shape).Idx → EReal) (n : Fin 1600000) : EReal :=
  Ideal.logistic ((∑ q : Fin 32, (W (ix2 (0 : Fin 2) q) - W (ix2 (1 : Fin 2) q)) * z (ix2 n q))
    + (b (ix1 (0 : Fin 2)) - b (ix1 (1 : Fin 2))))

/-- The result: column 0 the score, column 1 one minus it. -/
def out (z : (⟨2, ![1600000, 32]⟩ : Shape).Idx → EReal) (W : (⟨2, ![2, 32]⟩ : Shape).Idx → EReal)
    (b : (⟨1, ![2]⟩ : Shape).Idx → EReal) : (⟨2, ![1600000, 2]⟩ : Shape).Idx → EReal := fun i =>
  if (i 1).val = 0 then score z W b (i 0) else Ideal.ofBits .f32 0x3F800000#32 - score z W b (i 0)

/-- At finite entries the reference's result is `out`. -/
theorem reference_eq (z : (⟨2, ![1600000, 32]⟩ : Shape).Idx → EReal) (W : (⟨2, ![2, 32]⟩ : Shape).Idx → EReal)
    (b : (⟨1, ![2]⟩ : Shape).Idx → EReal)
    (hz : ∀ i, ∃ r : ℝ, z i = (r : EReal)) (hW : ∀ i, ∃ r : ℝ, W i = (r : EReal)) (hb : ∀ i, ∃ r : ℝ, b i = (r : EReal)) :
    Cert.ReferenceIdeal.Read.val_main_v15 (F := Ideal) z W b = out z W b := by
  choose zr hzr using hz
  choose Wr hWr using hW
  choose br hbr using hb
  funext i
  obtain ⟨n, j, rfl⟩ : ∃ (n : Fin 1600000) (j : Fin 2), i = ix2 n j := ⟨i 0, i 1, eq_ix2 i⟩
  rw [Cert.RefEntry.result_apply]
  -- the two logits of row n are reals
  have hl : Cert.RefEntry.logit z W b n
      = fun k : Fin 2 => (((∑ q : Fin 32, zr (ix2 n q) * Wr (ix2 k q)) + br (ix1 k) : ℝ) : EReal) := funext fun k => by
    unfold Cert.RefEntry.logit
    simp only [hzr, hWr, hbr]
    exact Cert.TwoClass.logit_coe (fun q => zr (ix2 n q)) (fun q => Wr (ix2 k q)) (br (ix1 k))
  -- the kernel's affine form of their difference is the real difference
  have hs : score z W b n = Ideal.logistic ((((∑ q : Fin 32, zr (ix2 n q) * Wr (ix2 (0 : Fin 2) q)) + br (ix1 (0 : Fin 2)))
      - ((∑ q : Fin 32, zr (ix2 n q) * Wr (ix2 (1 : Fin 2) q)) + br (ix1 (1 : Fin 2))) : ℝ) : EReal) := by
    unfold score
    simp only [hzr, hWr, hbr]
    rw [Cert.TwoClass.diff_coe (fun q => zr (ix2 n q)) (fun q => Wr (ix2 (0 : Fin 2) q)) (fun q => Wr (ix2 (1 : Fin 2) q)),
      Cert.TwoClass.diff_eq]
  rw [hl]
  unfold out
  match j with
  | ⟨0, _⟩ =>
    rw [if_pos rfl]
    exact (Cert.TwoClass.softmaxEntry_zero _).trans hs.symm
  | ⟨1, _⟩ =>
    rw [if_neg (by show ¬ ((1 : Nat) = 0); exact Nat.one_ne_zero)]
    exact (Cert.TwoClass.softmaxEntry_one _).trans (congrArg (Ideal.ofBits .f32 0x3F800000#32 - ·) hs.symm)

end Cert.Net

end
-- ==== Proof.KernelBlock.lean ====
/-
  What one grid step leaves in its output block.  The body multiplies the [1, 32] row of weight differences by the
  [32, 64000] slab of transposed inputs, lays the 64000 products out as [500, 128] (entry (p, r) is column
  128 p + r), adds the bias difference and takes the logistic; plane 0 of the [500, 2, 128] block gets that
  value and plane 1 gets one minus it.  So block entry (p, j, r) is
      j = 0 :      logistic (∑ q, w[0, q] · x[q, 128 p + r] + β)
      j = 1 :  1 - logistic (∑ q, w[0, q] · x[q, 128 p + r] + β).
-/
import proofs.«169653_g77627238907915_cont_9to1_m_635_8_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Block

open Cert.KernelIdeal Cert.KernelIdeal.Gen Idealize.ShloMosaic Idealize.ShloMosaic.ValueIdx

/-! ## The contraction's index maps, axis by axis -/

theorem lhs_axis0 (i : S1x64000.Idx) (q : dot_S1x32_S32x64000_S1x64000_1_0_0_1_n_n.contr.Idx) :
    (dot_S1x32_S32x64000_S1x64000_1_0_0_1_n_n.lhsIdx i q 0).val = (i 0).val := by
  unfold DotDims.lhsIdx
  rw [dif_neg (show ¬(0 : Fin S1x32.rank) ∈ dot_S1x32_S32x64000_S1x64000_1_0_0_1_n_n.lhsBatch by decide), dif_pos (show (0 : Fin S1x32.rank) ∈ dot_S1x32_S32x64000_S1x64000_1_0_0_1_n_n.lhsNonContracting by decide)]
  rfl
theorem lhs_axis1 (i : S1x64000.Idx) (q : dot_S1x32_S32x64000_S1x64000_1_0_0_1_n_n.contr.Idx) :
    (dot_S1x32_S32x64000_S1x64000_1_0_0_1_n_n.lhsIdx i q 1).val = (q ⟨0, by decide⟩).val :=
  dot_S1x32_S32x64000_S1x64000_1_0_0_1_n_n.lhsIdx_val_of_single rfl i q
theorem rhs_axis0 (i : S1x64000.Idx) (q : dot_S1x32_S32x64000_S1x64000_1_0_0_1_n_n.contr.Idx) :
    (dot_S1x32_S32x64000_S1x64000_1_0_0_1_n_n.rhsIdx i q 0).val = (q ⟨0, by decide⟩).val :=
  dot_S1x32_S32x64000_S1x64000_1_0_0_1_n_n.rhsIdx_val_of_single rfl i q
theorem rhs_axis1 (i : S1x64000.Idx) (q : dot_S1x32_S32x64000_S1x64000_1_0_0_1_n_n.contr.Idx) :
    (dot_S1x32_S32x64000_S1x64000_1_0_0_1_n_n.rhsIdx i q 1).val = (i 1).val := by
  unfold DotDims.rhsIdx
  rw [dif_neg (show ¬(1 : Fin S32x64000.rank) ∈ dot_S1x32_S32x64000_S1x64000_1_0_0_1_n_n.rhsBatch by decide), dif_pos (show (1 : Fin S32x64000.rank) ∈ dot_S1x32_S32x64000_S1x64000_1_0_0_1_n_n.rhsNonContracting by decide)]
  rfl

/-- The row-by-slab product into a zero accumulator, at column `y`: the sum over the 32 features. -/
theorem product_apply (w : FVec Ideal S1x32 .f32) (x : FVec Ideal S32x64000 .f32) (y : Fin 64000) :
    matmul dot_S1x32_S32x64000_S1x64000_1_0_0_1_n_n none w x (constant S1x64000 .f32 0x00000000#32) (ix2 (0 : Fin 1) y)
      = ∑ q : Fin 32, w (ix2 (0 : Fin 1) q) * x (ix2 q y) := by
  simp only [matmul]
  rw [Ideal.matmul_constant_zero_apply, ← Equiv.sum_comp (contrEquiv1 dot_S1x32_S32x64000_S1x64000_1_0_0_1_n_n 32 rfl rfl).symm]
  refine Finset.sum_congr rfl fun k _ => ?_
  have hk := contrEquiv1_symm_val dot_S1x32_S32x64000_S1x64000_1_0_0_1_n_n 32 rfl rfl k
  have el : dot_S1x32_S32x64000_S1x64000_1_0_0_1_n_n.lhsIdx (ix2 (0 : Fin 1) y) ((contrEquiv1 dot_S1x32_S32x64000_S1x64000_1_0_0_1_n_n 32 rfl rfl).symm k) = ix2 (0 : Fin 1) k := funext fun a => Fin.ext (by
    match a with
    | ⟨0, _⟩ => exact lhs_axis0 _ _
    | ⟨1, _⟩ => exact (lhs_axis1 _ _).trans hk)
  have er : dot_S1x32_S32x64000_S1x64000_1_0_0_1_n_n.rhsIdx (ix2 (0 : Fin 1) y) ((contrEquiv1 dot_S1x32_S32x64000_S1x64000_1_0_0_1_n_n 32 rfl rfl).symm k) = ix2 k y := funext fun a => Fin.ext (by
    match a with
    | ⟨0, _⟩ => exact (rhs_axis0 _ _).trans hk
    | ⟨1, _⟩ => exact rhs_axis1 _ _)
  rw [el, er]

/-! ## The logistic plane and its complement -/

/-- Column `128 p + r` of the slab. -/
def col (p : Fin 500) (r : Fin 128) : Fin 64000 := ⟨p.val * 128 + r.val, by have := p.isLt; have := r.isLt; omega⟩

/-- The score at lane `(p, r)`: the logistic of the weighted column plus the bias difference. -/
def score (x : FVec Ideal S32x64000 .f32) (w : FVec Ideal S1x32 .f32) (β : FVec Ideal S1x1 .f32) (p : Fin 500) (r : Fin 128) : EReal :=
  Ideal.logistic ((∑ q : Fin 32, w (ix2 (0 : Fin 1) q) * x (ix2 q (col p r))) + β (ix2 (0 : Fin 1) (0 : Fin 1)))

/-- The body's logistic value at `(p, r)` is the score there. -/
theorem pay1_apply (x : Vec Ideal S32x64000 .f32) (w : Vec Ideal S1x32 .f32) (β : Vec Ideal S1x1 .f32) (p : Fin 500) (r : Fin 128) :
    k0_pay1 x w β (ix2 p r) = score x w β p r := by
  unfold k0_pay1 score
  show Ideal.logistic (_ + _) = _
  congr 1
  refine congrArg₂ (· + ·) ?_ ?_
  · rw [shapeCast_self, shapeCast_self]
    refine (shapeCast_apply _ _ (ix2 p r) (ix2 (0 : Fin 1) (col p r)) (by
      rw [Shape.rowMajor_val_two, Shape.rowMajor_val_two]
      show 0 * 64000 + (p.val * 128 + r.val) = p.val * 128 + r.val
      omega)).trans ?_
    exact product_apply _ _ _
  · show extractAt ![0, 0] β inpos_S1x1_p0_0 = _
    unfold extractAt
    exact congrArg β (funext fun a => Fin.ext (by match a with | ⟨0, _⟩ => rfl | ⟨1, _⟩ => rfl))

/-- What is stored to plane 0, at `(p, 0, r)`. -/
theorem pay2_apply (x : Vec Ideal S32x64000 .f32) (w : Vec Ideal S1x32 .f32) (β : Vec Ideal S1x1 .f32) (p : Fin 500) (u : Fin 1) (r : Fin 128) :
    k0_pay2 x w β (ix3 p u r) = score x w β p r := by
  unfold k0_pay2
  refine (shapeCast_apply _ _ (ix3 p u r) (ix2 p r) (by
    have hu : u.val = 0 := by omega
    rw [Shape.rowMajor_val_two, Shape.rowMajor_val_three]
    show p.val * 128 + r.val = (p.val * 1 + u.val) * 128 + r.val
    rw [hu]; omega)).trans ?_
  exact pay1_apply x w β p r

/-- What is stored to plane 1, at `(p, 0, r)`: one minus the score. -/
theorem pay3_apply (x : Vec Ideal S32x64000 .f32) (w : Vec Ideal S1x32 .f32) (β : Vec Ideal S1x1 .f32) (p : Fin 500) (u : Fin 1) (r : Fin 128) :
    k0_pay3 x w β (ix3 p u r) = Ideal.ofBits .f32 0x3F800000#32 - score x w β p r := by
  unfold k0_pay3
  refine (shapeCast_apply _ _ (ix3 p u r) (ix2 p r) (by
    have hu : u.val = 0 := by omega
    rw [Shape.rowMajor_val_two, Shape.rowMajor_val_three]
    show p.val * 128 + r.val = (p.val * 1 + u.val) * 128 + r.val
    rw [hu]; omega)).trans ?_
  show Ideal.ofBits .f32 0x3F800000#32 - k0_pay1 x w β (ix2 p r) = _
  rw [pay1_apply]

/-! ## The block the two stores leave -/

/-- The block in closed form: plane 0 the score, plane 1 its complement. -/
def blockOf (x : FVec Ideal S32x64000 .f32) (w : FVec Ideal S1x32 .f32) (β : FVec Ideal S1x1 .f32) : S500x2x128.Idx → EReal := fun y =>
  if (y 1).val = 0 then score x w β (y 0) (y 2) else Ideal.ofBits .f32 0x3F800000#32 - score x w β (y 0) (y 2)

theorem zero2 : (![0, 0] : Fin 2 → Nat) = fun _ => 0 := funext fun a => by fin_cases a <;> rfl

/-- Plane 1's store restricts the closed form: its lane `(p, 0, r)` sits at block index `(p, 1, r)`. -/
theorem plane1_piece (x : Vec Ideal S32x64000 .f32) (w : Vec Ideal S1x32 .f32) (β : Vec Ideal S1x1 .f32) (z : S500x1x128.Idx) :
    k0_pay3 x w β z = blockOf x w β (r0_4.idx z) := by
  obtain ⟨p, u, r, rfl⟩ : ∃ (p : Fin 500) (u : Fin 1) (r : Fin 128), z = ix3 p u r := ⟨z 0, z 1, z 2, eq_ix3 z⟩
  rw [pay3_apply]
  unfold blockOf
  rw [if_neg (by show ¬ (1 + 1 * u.val = 0); omega)]
  have e0 : (r0_4.idx (ix3 p u r)) 0 = p := Fin.ext (by show 0 + 1 * p.val = p.val; omega)
  have e2 : (r0_4.idx (ix3 p u r)) 2 = r := Fin.ext (by show 0 + 1 * r.val = r.val; omega)
  rw [e0, e2]

/-- Plane 0's store restricts the closed form: its lane `(p, 0, r)` sits at block index `(p, 0, r)`. -/
theorem plane0_piece (x : Vec Ideal S32x64000 .f32) (w : Vec Ideal S1x32 .f32) (β : Vec Ideal S1x1 .f32) (z : S500x1x128.Idx) :
    k0_pay2 x w β z = blockOf x w β (r0_3.idx z) := by
  obtain ⟨p, u, r, rfl⟩ : ∃ (p : Fin 500) (u : Fin 1) (r : Fin 128), z = ix3 p u r := ⟨z 0, z 1, z 2, eq_ix3 z⟩
  rw [pay2_apply]
  unfold blockOf
  have hu : u.val < 1 := u.isLt
  rw [if_pos (by show 0 + 1 * u.val = 0; omega)]
  have e0 : (r0_3.idx (ix3 p u r)) 0 = p := Fin.ext (by show 0 + 1 * p.val = p.val; omega)
  have e2 : (r0_3.idx (ix3 p u r)) 2 = r := Fin.ext (by show 0 + 1 * r.val = r.val; omega)
  rw [e0, e2]

/-- The output buffer after the body is the closed form: each store's payload restricts it, and the two planes tile the block. -/
theorem out_eq (x : Vec Ideal S32x64000 .f32) (w : Vec Ideal S1x32 .f32) (β : Vec Ideal S1x1 .f32) :
    out0_3 x w β = blockOf x w β := by
  funext y
  unfold out0_3
  simp only [View.ld_unit_zero (S := S32x64000) zero2, View.ld_unit_zero (S := S1x32) zero2, View.ld_unit_zero (S := S1x1) zero2]
  refine View.canon_apply_of_pieces (Val := Elt Ideal) (e := .f32) (blockOf x w β) _ ?_ y (cover0_3 _ _ y)
  intro pc hpc z
  rcases List.mem_cons.mp hpc with rfl | hpc
  · exact plane1_piece x w β z
  rcases List.mem_cons.mp hpc with rfl | hpc
  · exact plane0_piece x w β z
  nomatch hpc

end Cert.KernelIdeal.Block

end
-- ==== Proof.KernelArray.lean ====
/-
  From blocks to the result array.  Before the call the host forms the weight-difference row `W[0,:] - W[1,:]`
  as a [1, 32] array, the bias difference `b[0] - b[1]` as a [1, 1] array and the transpose of `z`,
  [32, 1600000].  Grid step `t` (of 25) reads columns `64000 t …` of the transpose and writes rows `500 t …` of a
  [12500, 2, 128] array, so that array holds at (P, j, r) the score (j = 0) or its complement (j = 1) of input row
  `128 P + r`; the 25 blocks tile it.  After the call the host swaps the last two axes and flattens [12500, 128]
  to 1600000 rows: entry (n, j) of the result is entry (n / 128, j, n % 128) of that array, the value for row n.
-/
import proofs.«169653_g77627238907915_cont_9to1_m_635_8_alg».proof.Proof.KernelBlock
import proofs.«169653_g77627238907915_cont_9to1_m_635_8_alg».proof.Proof.Net
import Idealize.ShloMosaic.Lib.StableHlo.Run

set_option maxRecDepth 16384

noncomputable section

namespace Cert.KernelIdeal.Arr

open Cert.KernelIdeal Cert.KernelIdeal.Gen Cert.KernelIdeal.Block Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The three arrays the call reads, as the host leaves them -/

/-- The argument arrays at their literal types. -/
abbrev zArg (c : Dev nD) : FVec Ideal S1600000x32 .f32 := m ((c : Thread nD τ).loc main_arg0)
abbrev wArg (c : Dev nD) : FVec Ideal S2x32 .f32 := m ((c : Thread nD τ).loc main_arg1)
abbrev bArg (c : Dev nD) : FVec Ideal S2 .f32 := m ((c : Thread nD τ).loc main_arg2)

/-- The call's operands at their literal types. -/
abbrev zT (c : Dev nD) : FVec Ideal S32x1600000 .f32 := V m c main_v12
abbrev wDiff (c : Dev nD) : FVec Ideal S1x32 .f32 := V m c main_v5
abbrev bDiff (c : Dev nD) : FVec Ideal S1x1 .f32 := V m c main_v11

theorem zT_eq (c : Dev nD) :
    zT m c = transpose S32x1600000 [1, 0] (zArg m c) transposes_S1600000x32_S32x1600000_1_0 := by
  show StableHlo.after hostOps0 (fun b => m (c, b)) (Proc.devRef .tc main_v12) = _
  after_results

theorem wDiff_eq (c : Dev nD) :
    wDiff m c = shapeCast S1x32 (subf
      (shapeCast S32 (extractStridedSlice S1x32 ![0, 0] (wArg m c) slices_S2x32_S1x32_0_0) shapeCasts_S1x32_S32)
      (shapeCast S32 (extractStridedSlice S1x32 ![1, 0] (wArg m c) slices_S2x32_S1x32_1_0) shapeCasts_S1x32_S32))
      shapeCasts_S32_S1x32 := by
  show StableHlo.after hostOps0 (fun b => m (c, b)) (Proc.devRef .tc main_v5) = _
  after_results
  rfl

theorem bDiff_eq (c : Dev nD) :
    bDiff m c = shapeCast S1x1 (subf
      (shapeCast S_ (extractStridedSlice S1 ![0] (bArg m c) slices_S2_S1_0) shapeCasts_S1_S_)
      (shapeCast S_ (extractStridedSlice S1 ![1] (bArg m c) slices_S2_S1_1) shapeCasts_S1_S_))
      shapeCasts_S_S1x1 := by
  show StableHlo.after hostOps0 (fun b => m (c, b)) (Proc.devRef .tc main_v11) = _
  after_results
  rfl

/-- The transposed input at `(q, n)` is `z[n, q]`. -/
theorem zT_apply (c : Dev nD) (q : Fin 32) (n : Fin 1600000) : zT m c (ix2 q n) = zArg m c (ix2 n q) := by
  rw [zT_eq]; exact transpose_ix2_apply _ _ q n

/-- The weight-difference row at `(0, q)`. -/
theorem wDiff_apply (c : Dev nD) (u : Fin 1) (q : Fin 32) :
    wDiff m c (ix2 u q) = wArg m c (ix2 (0 : Fin 2) q) - wArg m c (ix2 (1 : Fin 2) q) := by
  rw [wDiff_eq, shapeCast_a_1a_apply]
  show shapeCast S32 _ _ (ix1 q) - shapeCast S32 _ _ (ix1 q) = _
  rw [shapeCast_1a_a_apply, shapeCast_1a_a_apply,
    slice2_axis0_apply 0 (wArg m c) slices_S2x32_S1x32_0_0 (0 : Fin 1) q (0 : Fin 2) rfl,
    slice2_axis0_apply 1 (wArg m c) slices_S2x32_S1x32_1_0 (0 : Fin 1) q (1 : Fin 2) rfl]

/-- The bias difference, the [1, 1] array's one entry. -/
theorem bDiff_apply (c : Dev nD) (u v : Fin 1) :
    bDiff m c (ix2 u v) = bArg m c (ix1 (0 : Fin 2)) - bArg m c (ix1 (1 : Fin 2)) := by
  rw [bDiff_eq]
  refine (shapeCast_apply _ _ (ix2 u v) ix0 ((Nat.lt_one_iff.mp (Fin.isLt _)).trans (Nat.lt_one_iff.mp (Fin.isLt _)).symm)).trans ?_
  show shapeCast S_ _ _ ix0 - shapeCast S_ _ _ ix0 = _
  have e0 : shapeCast S_ (extractStridedSlice S1 ![0] (bArg m c) slices_S2_S1_0) shapeCasts_S1_S_ ix0 = bArg m c (ix1 (0 : Fin 2)) := by
    refine (shapeCast_apply _ _ ix0 (ix1 (0 : Fin 1)) ((Nat.lt_one_iff.mp (Fin.isLt _)).trans (Nat.lt_one_iff.mp (Fin.isLt _)).symm)).trans ?_
    exact extractStridedSlice_apply _ _ _ _ (ix1 (0 : Fin 2)) (fun a => by match a with | ⟨0, _⟩ => rfl)
  have e1 : shapeCast S_ (extractStridedSlice S1 ![1] (bArg m c) slices_S2_S1_1) shapeCasts_S1_S_ ix0 = bArg m c (ix1 (1 : Fin 2)) := by
    refine (shapeCast_apply _ _ ix0 (ix1 (0 : Fin 1)) ((Nat.lt_one_iff.mp (Fin.isLt _)).trans (Nat.lt_one_iff.mp (Fin.isLt _)).symm)).trans ?_
    exact extractStridedSlice_apply _ _ _ _ (ix1 (1 : Fin 2)) (fun a => by match a with | ⟨0, _⟩ => rfl)
  rw [e0, e1]

/-! ## The blocks the call fetches, read off those arrays -/

/-- The printed index maps, decided over the 25 grid steps: the slab moves along the columns with the step, the row
    of weights and the bias stay put, the output block moves along the leading axis with the step. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The three input blocks of step `t` at their literal types. -/
abbrev xBlk (c : Dev nD) (t : Fin cfg0.N) : Vec Ideal S32x64000 .f32 := iblk m c 0 t
abbrev wBlk (c : Dev nD) (t : Fin cfg0.N) : Vec Ideal S1x32 .f32 := iblk m c 1 t
abbrev bBlk (c : Dev nD) (t : Fin cfg0.N) : Vec Ideal S1x1 .f32 := iblk m c 2 t

/-- Step `t`'s slab holds columns `64000 t …` of the transposed input. -/
theorem xBlk_apply (c : Dev nD) (t : Fin cfg0.N) (q : Fin 32) (y : Fin 64000) (n : Fin 1600000)
    (hn : n.val = t.val * 64000 + y.val) : xBlk m c t (ix2 q y) = zT m c (ix2 q n) := by
  obtain ⟨e0, e1, -⟩ := idx_facts t
  show V m c main_v12 (((cfg0.win 0).blk t).view.emb (ix2 q y)) = V m c main_v12 (ix2 q n)
  refine congrArg _ (funext fun a => Fin.ext ?_)
  match a with
  | ⟨0, _⟩ => show win0_0.index t (0 : Fin 2) * 32 + 1 * q.val = q.val; omega
  | ⟨1, _⟩ => show win0_0.index t (1 : Fin 2) * 64000 + 1 * y.val = n.val; omega

/-- Every step sees the whole weight-difference row. -/
theorem wBlk_apply (c : Dev nD) (t : Fin cfg0.N) (u : Fin 1) (q : Fin 32) : wBlk m c t (ix2 u q) = wDiff m c (ix2 u q) := by
  obtain ⟨-, -, e0, e1, -⟩ := idx_facts t
  show V m c main_v5 (((cfg0.win 1).blk t).view.emb (ix2 u q)) = V m c main_v5 (ix2 u q)
  refine congrArg _ (funext fun a => Fin.ext ?_)
  match a with
  | ⟨0, _⟩ => show win0_1.index t (0 : Fin 2) * 1 + 1 * u.val = u.val; omega
  | ⟨1, _⟩ => show win0_1.index t (1 : Fin 2) * 32 + 1 * q.val = q.val; omega

/-- Every step sees the bias difference. -/
theorem bBlk_apply (c : Dev nD) (t : Fin cfg0.N) (u v : Fin 1) : bBlk m c t (ix2 u v) = bDiff m c (ix2 u v) := by
  obtain ⟨-, -, -, -, e0, e1, -⟩ := idx_facts t
  show V m c main_v11 (((cfg0.win 2).blk t).view.emb (ix2 u v)) = V m c main_v11 (ix2 u v)
  refine congrArg _ (funext fun a => Fin.ext ?_)
  match a with
  | ⟨0, _⟩ => show win0_2.index t (0 : Fin 2) * 1 + 1 * u.val = u.val; omega
  | ⟨1, _⟩ => show win0_2.index t (1 : Fin 2) * 1 + 1 * v.val = v.val; omega

/-- Lane `(p, r)` of step `t` scores input row `n = (500 t + p) · 128 + r`. -/
theorem score_eq (c : Dev nD) (t : Fin cfg0.N) (p : Fin 500) (r : Fin 128) (n : Fin 1600000)
    (hn : n.val = (t.val * 500 + p.val) * 128 + r.val) :
    Block.score (xBlk m c t) (wBlk m c t) (bBlk m c t) p r = Cert.Net.score (zArg m c) (wArg m c) (bArg m c) n := by
  unfold Block.score Cert.Net.score
  congr 1
  refine congrArg₂ (· + ·) (Finset.sum_congr rfl fun q _ => ?_) ?_
  · rw [wBlk_apply, xBlk_apply m c t q (col p r) n (by show n.val = t.val * 64000 + (p.val * 128 + r.val); omega),
      wDiff_apply, zT_apply]
  · rw [bBlk_apply, bDiff_apply]

/-! ## The array the call leaves -/

/-- The input row that entry `(P, ·, r)` of the call's result is about. -/
def rowOf (P : Fin 12500) (r : Fin 128) : Fin 1600000 := ⟨P.val * 128 + r.val, by have := P.isLt; have := r.isLt; omega⟩

/-- The call's result: at `(P, j, r)` the score of row `128 P + r` (j = 0) or its complement (j = 1). -/
def arrOf (c : Dev nD) : S12500x2x128.Idx → EReal := fun i =>
  if (i 1).val = 0 then Cert.Net.score (zArg m c) (wArg m c) (bArg m c) (rowOf (i 0) (i 2))
  else Ideal.ofBits .f32 0x3F800000#32 - Cert.Net.score (zArg m c) (wArg m c) (bArg m c) (rowOf (i 0) (i 2))

/-- What step `t` leaves in its output buffer is block `t` of `arrOf`. -/
theorem block_apply (c : Dev nD) (t : Fin cfg0.N) (j : S500x2x128.Idx) :
    out0_3 (xBlk m c t) (wBlk m c t) (bBlk m c t) j = arrOf m c (((cfg0.win 3).blk t).view.emb j) := by
  obtain ⟨p, u, r, rfl⟩ : ∃ (p : Fin 500) (u : Fin 2) (r : Fin 128), j = ix3 p u r := ⟨j 0, j 1, j 2, eq_ix3 j⟩
  obtain ⟨-, -, -, -, -, -, e0, e1, e2⟩ := idx_facts t
  have hE0 : ((((cfg0.win 3).blk t).view.emb (ix3 p u r)) 0).val = t.val * 500 + p.val := by
    show win0_3.index t (0 : Fin 3) * 500 + 1 * p.val = _; omega
  have hE1 : ((((cfg0.win 3).blk t).view.emb (ix3 p u r)) 1).val = u.val := by
    show win0_3.index t (1 : Fin 3) * 2 + 1 * u.val = _; omega
  have hE2 : ((((cfg0.win 3).blk t).view.emb (ix3 p u r)) 2).val = r.val := by
    show win0_3.index t (2 : Fin 3) * 128 + 1 * r.val = _; omega
  refine (congrFun (Block.out_eq (xBlk m c t) (wBlk m c t) (bBlk m c t)) (ix3 p u r)).trans ?_
  have hs : Block.score (xBlk m c t) (wBlk m c t) (bBlk m c t) p r
      = Cert.Net.score (zArg m c) (wArg m c) (bArg m c)
          (rowOf ((((cfg0.win 3).blk t).view.emb (ix3 p u r)) 0) ((((cfg0.win 3).blk t).view.emb (ix3 p u r)) 2)) :=
    score_eq m c t p r _ (by show _ * 128 + _ = _; rw [hE0, hE2])
  unfold Block.blockOf arrOf
  by_cases hu : u.val = 0
  · rw [if_pos (show ((ix3 p u r) 1).val = 0 from hu), if_pos (hE1.trans hu)]
    exact hs
  · rw [if_neg (show ¬ ((ix3 p u r) 1).val = 0 from hu), if_neg (fun h => hu (hE1.symm.trans h))]
    exact congrArg (Ideal.ofBits .f32 0x3F800000#32 - ·) hs

/-- WHAT STEP `t` WRITES BACK is block `t` of `arrOf`. -/
theorem flushed_eq (c : Dev nD) (t : Fin cfg0.N) :
    (dats m 0 c).flushed 3 t = ((cfg0.win 3).blk t).view.read (Elt Ideal) (arrOf m c) := by
  show (cfg0.win 3).cut (grid0.coords t) ((dats m 0 c).after 3 t) = _
  rw [after0_3]
  funext j
  exact block_apply m c t j

/-- An index of the array is in step `t`'s block iff each coordinate is in the block's range on its axis. -/
theorem mem_blk (t : Fin cfg0.N) (i : S12500x2x128.Idx) :
    i ∈ ((cfg0.win 3).blk t).view.set ↔ ∀ a : Fin 3, win0_3.index t a * S500x2x128.size a ≤ (i a).val ∧ (i a).val < win0_3.index t a * S500x2x128.size a + S500x2x128.size a := by
  show i ∈ ((View.whole main_v13).slice (win0_3.rect t)).set ↔ _
  rw [View.set_slice_whole, Rect.mem_set_unit]
  exact Iff.rfl

/-- The 25 blocks tile the array: entry `(P, j, r)` is in block `P / 500`. -/
theorem cover (i : S12500x2x128.Idx) : ∃ t : Fin cfg0.N, (cfg0.win 3).flush t = true ∧ i ∈ ((cfg0.win 3).blk t).view.set := by
  have h0 : (i 0).val < 12500 := (i 0).isLt
  have h1 : (i 1).val < 2 := (i 1).isLt
  have h2 : (i 2).val < 128 := (i 2).isLt
  let t : Fin cfg0.N := ⟨(i 0).val / 500, by rw [show cfg0.N = 25 from N_0]; omega⟩
  obtain ⟨-, -, -, -, -, -, e0, e1, e2⟩ := idx_facts t
  have htv : t.val = (i 0).val / 500 := rfl
  refine ⟨t, flush0_3 t, ?_⟩
  rw [mem_blk]
  intro a
  match a with
  | ⟨0, _⟩ => show win0_3.index t (0 : Fin 3) * 500 ≤ (i 0).val ∧ (i 0).val < win0_3.index t (0 : Fin 3) * 500 + 500; omega
  | ⟨1, _⟩ => show win0_3.index t (1 : Fin 3) * 2 ≤ (i 1).val ∧ (i 1).val < win0_3.index t (1 : Fin 3) * 2 + 2; omega
  | ⟨2, _⟩ => show win0_3.index t (2 : Fin 3) * 128 ≤ (i 2).val ∧ (i 2).val < win0_3.index t (2 : Fin 3) * 128 + 128; omega

/-- THE ARRAY after the call. -/
theorem final (c : Dev nD) : (dats m 0 c).arrAt 3 cfg0.N = arrOf m c :=
  (dats m 0 c).arrAt_eq_of_cover 3 (arrOf m c) (fun t _ => flushed_eq m c t) cover

end Cert.KernelIdeal.Arr

end
-- ==== Proof.KernelRun.lean ====
/-
  The kernel's run, read: after @main the result buffer holds `Net.out` of the three argument arrays.  The two host
  lines after the call swap the last two axes of the [12500, 2, 128] array and flatten it: result entry (n, j) is the
  array's entry (n / 128, j, n % 128), the score (or its complement) of input row 128 (n / 128) + n % 128 = n.
-/
import proofs.«169653_g77627238907915_cont_9to1_m_635_8_alg».proof.Proof.KernelArray

set_option maxRecDepth 16384

noncomputable section

namespace Cert.KernelIdeal.Arr

open Cert.KernelIdeal Cert.KernelIdeal.Gen Idealize.ShloMosaic Idealize.ShloMosaic.TcCoe
open Idealize.ShloMosaic.ValueIdx Idealize.SL.Sem Idealize.ShloMosaic.StableHlo

variable (m : (ℓ : Loc nD τ sig) → Buf (Elt Ideal) ℓ) (ρ : Dev nD → PrngReg)

/-- The lines after the call, applied to what the call left. -/
theorem tail_term (c : Dev nD) :
    (Pipeline.afterTail₀ cfgs (dats m) 0 (V0 m) [hostOps1] c main_v15 : S1600000x2.Idx → EReal)
      = shapeCast S1600000x2 (transpose S12500x128x2 [0, 2, 1] (arrOf m c) transposes_S12500x2x128_S12500x128x2_0_2_1)
          shapeCasts_S12500x128x2_S1600000x2 := by
  have harr : Pipeline.withArrays (cfgs 0).spec c (V0 m c) (fun w => (dats m 0 c).arrAt w (cfgs 0).N) (Proc.devRef .tc main_v13)
      = arrOf m c := (Pipeline.withArrays_arr spec0 launch0.win.arr_inj c _ _ 3).trans (final m c)
  rw [← harr]
  unfold Pipeline.afterTail₀
  show StableHlo.after hostOps1 _ (Proc.devRef .tc main_v15) = _
  after_results
  rfl

/-- THE RESULT as one function of the arguments. -/
theorem tail_eq (c : Dev nD) :
    (Pipeline.afterTail₀ cfgs (dats m) 0 (V0 m) [hostOps1] c main_v15 : S1600000x2.Idx → EReal)
      = Cert.Net.out (zArg m c) (wArg m c) (bArg m c) := by
  rw [tail_term]
  funext i
  obtain ⟨n, j, rfl⟩ : ∃ (n : Fin 1600000) (j : Fin 2), i = ix2 n j := ⟨i 0, i 1, eq_ix2 i⟩
  have hn : n.val < 1600000 := n.isLt
  refine (shapeCast_apply _ _ (ix2 n j)
    (ix3 (⟨n.val / 128, by omega⟩ : Fin 12500) (⟨n.val % 128, Nat.mod_lt _ (by decide)⟩ : Fin 128) j) (by
      rw [Shape.rowMajor_val_three, Shape.rowMajor_val_two]
      show (n.val / 128 * 128 + n.val % 128) * 2 + j.val = n.val * 2 + j.val
      omega)).trans ?_
  rw [transpose_ix3_021_apply]
  unfold arrOf Cert.Net.out
  have hr : rowOf (⟨n.val / 128, by omega⟩ : Fin 12500) (⟨n.val % 128, Nat.mod_lt _ (by decide)⟩ : Fin 128) = n :=
    Fin.ext (by show n.val / 128 * 128 + n.val % 128 = n.val; omega)
  show (if j.val = 0 then Cert.Net.score _ _ _ (rowOf _ _) else _ - Cert.Net.score _ _ _ (rowOf _ _))
      = (if j.val = 0 then Cert.Net.score _ _ _ n else _ - Cert.Net.score _ _ _ n)
  rw [hr]

/-- THE KERNEL'S RUN, READ: every weakly fair execution terminates with the result at `Net.out` of the argument
    arrays, the arguments unchanged. -/
theorem run : θ_run defs (onTc (τ := τ) (main (F := Ideal))) ⟨m, fun _ => 0, ρ⟩ fun r => ∀ c : Dev nD,
      r.2.mem ((c.tc : Thread nD τ).loc main_v15) = Cert.Net.out (zArg m c) (wArg m c) (bArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arr

end
-- ==== Proof.lean ====
/-
  The certificate: a Pallas kernel for the last layer of a two-class network, `softmax (z · Wᵀ + b)` over 1,600,000
  rows of 32 features, against its jnp reference, over the extended reals.

  The kernel uses that a softmax over two classes is `(s, 1 - s)` with `s` the logistic of the DIFFERENCE of the
  two logits: it forms the row `W[0,:] - W[1,:]` and the scalar `b[0] - b[1]` on the host, transposes `z`, and in 25
  grid steps computes `s = logistic (∑ q, (W[0,q] - W[1,q]) · z[n,q] + (b[0] - b[1]))` for 64,000 rows at a time,
  writing `s` and `1 - s` to two planes of a [12500, 2, 128] array that the host then re-lays as [1600000, 2].
  The reference computes the two logits `∑ q, z[n,q] · W[k,q] + b[k]`, subtracts their maximum, exponentiates and
  normalises.  Both are the function `Net.out` of the three arrays:
    • the kernel by reading its frame run block by block (KernelBlock, KernelArray, KernelRun);
    • the reference by reading its operations entry by entry (RefEntry) and by the law of TwoClass: with
      `a = exp (l₀ - M)`, `b = exp (l₁ - M)` for ANY real `M`, `a / (a + b) = 1 / (1 + exp (-(l₀ - l₁)))` and
      `b / (a + b)` is one minus it, while `l₀ - l₁` is the affine form of the weight difference (Net).
  That last step distributes a product over a difference and needs the row maximum to be a real number: it is a law of
  the reals, and the precondition (every entry of `z`, `W`, `b` finite: FiniteEntries) is what puts every entry there.
  The kernel's idealization rewrote nothing, so `preserves` has nothing to state; the three frames are the generated
  frame runs (the reference's its generated run with the result dropped).
-/
import proofs.«169653_g77627238907915_cont_9to1_m_635_8_alg».proof.Defs
import proofs.«169653_g77627238907915_cont_9to1_m_635_8_alg».proof.Proof.Gen.Kernel
import proofs.«169653_g77627238907915_cont_9to1_m_635_8_alg».proof.Proof.Gen.Kernel.Skeleton
import proofs.«169653_g77627238907915_cont_9to1_m_635_8_alg».proof.Proof.Gen.Kernel.Launch
import proofs.«169653_g77627238907915_cont_9to1_m_635_8_alg».proof.Proof.Gen.Kernel.Points
import proofs.«169653_g77627238907915_cont_9to1_m_635_8_alg».proof.Proof.Gen.Kernel.Frame
import proofs.«169653_g77627238907915_cont_9to1_m_635_8_alg».proof.Proof.Gen.KernelIdeal
import proofs.«169653_g77627238907915_cont_9to1_m_635_8_alg».proof.Proof.Gen.KernelIdeal.Skeleton
import proofs.«169653_g77627238907915_cont_9to1_m_635_8_alg».proof.Proof.Gen.KernelIdeal.Launch
import proofs.«169653_g77627238907915_cont_9to1_m_635_8_alg».proof.Proof.Gen.KernelIdeal.Points
import proofs.«169653_g77627238907915_cont_9to1_m_635_8_alg».proof.Proof.Gen.KernelIdeal.Frame
import proofs.«169653_g77627238907915_cont_9to1_m_635_8_alg».proof.Proof.Gen.ReferenceIdeal
import proofs.«169653_g77627238907915_cont_9to1_m_635_8_alg».proof.Proof.Gen.Pre_finite_inputs
import proofs.«169653_g77627238907915_cont_9to1_m_635_8_alg».proof.Proof.Gen.ReferenceIdeal.Run
import proofs.«169653_g77627238907915_cont_9to1_m_635_8_alg».proof.Proof.Gen.ReferenceIdeal.Read
import proofs.«169653_g77627238907915_cont_9to1_m_635_8_alg».proof.Proof.FiniteEntries
import proofs.«169653_g77627238907915_cont_9to1_m_635_8_alg».proof.Proof.Net
import proofs.«169653_g77627238907915_cont_9to1_m_635_8_alg».proof.Proof.KernelRun
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result at `Net.out` of the arguments: the kernel on any input, the reference on a
    finite one, which the precondition provides (it is stated of the kernel's memory, and the two memories agree on
    the arguments). -/
theorem algebraic : Cert.algebraic_KernelIdeal_ReferenceIdeal := by
  intro m ρ m' ρ' hpre hagree
  refine ⟨fun c => Cert.Net.out (Cert.KernelIdeal.Arr.zArg m c) (Cert.KernelIdeal.Arr.wArg m c) (Cert.KernelIdeal.Arr.bArg m c),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨hz, hW, hb⟩ := Cert.FiniteEntries.entries_real _ _ _ (hpre c)
  rw [Cert.ReferenceIdeal.Read.val_main_v15_eq, (hagree c).1, (hagree c).2.1, (hagree c).2.2]
  exact Cert.Net.reference_eq _ _ _ hz hW hb

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
